-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S8x2048 : Shape := ⟨2, ![8, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S4x8192x2048 .f32) (main_arg1 : FVec F S8x2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S4x8192x2048 : Shape := ⟨3, ![4, 8192, 2048]⟩
abbrev S8x2048 : Shape := ⟨2, ![8, 2048]⟩
abbrev S2x16384x2048 : Shape := ⟨3, ![2, 16384, 2048]⟩
abbrev S2x16384x8 : Shape := ⟨3, ![2, 16384, 8]⟩
abbrev S2x1024x2048 : Shape := ⟨3, ![2, 1024, 2048]⟩
abbrev S2x1024x8 : Shape := ⟨3, ![2, 1024, 8]⟩
abbrev S1x1024x2048 : Shape := ⟨3, ![1, 1024, 2048]⟩
abbrev S1024x2048 : Shape := ⟨2, ![1024, 2048]⟩
abbrev S1024x8 : Shape := ⟨2, ![1024, 8]⟩
abbrev S1x1024x8 : Shape := ⟨3, ![1, 1024, 8]⟩
abbrev S4x8192x8 : Shape := ⟨3, ![4, 8192, 8]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S8x2048, .f32⟩
  | .hbm, ⟨2, _⟩ => ⟨S2x16384x2048, .f32⟩
  | .hbm, ⟨3, _⟩ => ⟨S2x16384x8, .f32⟩
  | .hbm, ⟨4, _⟩ => ⟨S4x8192x8, .f32⟩
  | .local _ .vmem, ⟨0, _⟩ => ⟨S2x1024x2048, .f32⟩
  | .local _ .vmem, ⟨1, _⟩ => ⟨S2x1024x2048, .f32⟩
  | .local _ .vmem, ⟨2, _⟩ => ⟨S8x2048, .f32⟩
  | .local _ .vmem, ⟨3, _⟩ => ⟨S2x1024x8, .f32⟩
  | .local _ .vmem, ⟨4, _⟩ => ⟨S2x1024x8, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x2048_S2x16384x2048 : S4x8192x2048.ShapeCasts S2x16384x2048
  inb_S8x2048_S8x2048_0_0 : ∀ a, (![0, 0] : Fin 2 → Nat) a + S8x2048.size a ≤ S8x2048.size a
  h_S8x2048 : 0 < S8x2048.numel
  inb_S2x1024x2048_S1x1024x2048_0_0_0 : ∀ a, (![0, 0, 0] : Fin 3 → Nat) a + S1x1024x2048.size a ≤ S2x1024x2048.size a
  h_S1x1024x2048 : 0 < S1x1024x2048.numel
  shapeCasts_S1x1024x2048_S1024x2048 : S1x1024x2048.ShapeCasts S1024x2048
  inb_S2x1024x8_S1x1024x8_0_0_0 : ∀ a, (![0, 0, 0] : Fin 3 → Nat) a + S1x1024x8.size a ≤ S2x1024x8.size a
  h_S1x1024x8 : 0 < S1x1024x8.numel
  shapeCasts_S1x1024x8_S1024x8 : S1x1024x8.ShapeCasts S1024x8
  shapeCasts_S1024x8_S1x1024x8 : S1024x8.ShapeCasts S1x1024x8
  inb_S2x1024x2048_S1x1024x2048_1_0_0 : ∀ a, (![1, 0, 0] : Fin 3 → Nat) a + S1x1024x2048.size a ≤ S2x1024x2048.size a
  inb_S2x1024x8_S1x1024x8_1_0_0 : ∀ a, (![1, 0, 0] : Fin 3 → Nat) a + S1x1024x8.size a ≤ S2x1024x8.size a
  shapeCasts_S2x16384x8_S4x8192x8 : S2x16384x8.ShapeCasts S4x8192x8
  dot_S1024x2048_S8x2048_S1024x8_1_1_0_0_n_n_wf : DotDims.WF S1024x2048 S8x2048 S1024x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x2048.size a ≤ S2x16384x2048.size a
  hwx0_0 : ∀ i : grid0.Coords, EltTy.bits .f32 = 32 ∨ (Rect.block (s := S2x16384x2048) S2x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x8.size a ≤ S2x16384x8.size a
  hwx0_2 : ∀ i : grid0.Coords, EltTy.bits .f32 = 32 ∨ (Rect.block (s := S2x16384x8) S2x1024x8.size (cc0_transform_2 i) (hinb0_2 i)).WholeWords (EltTy.packing .f32)

variable [Facts₀]

def dot_S1024x2048_S8x2048_S1024x8_1_1_0_0_n_n : DotDims S1024x2048 S8x2048 S1024x8 where
  lhsContracting := [1]
  rhsContracting := [1]
  lhsNonContracting := [0]
  rhsNonContracting := [0]
  lhsBatch := []
  rhsBatch := []
  wf := dot_S1024x2048_S8x2048_S1024x8_1_1_0_0_n_n_wf

abbrev win0_0 : Pipeline.Window sig grid0 :=
  Pipeline.Window.ofSpec (Memref.whole main_v0) S2x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1024x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S8x2048 : Shape := ⟨2, ![8, 2048]⟩
abbrev S4x8192x8 : Shape := ⟨3, ![4, 8192, 8]⟩

abbrev nBuf : Space → Nat
  | .hbm => 3
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8x2048, .f32⟩
  | .hbm, ⟨2, _⟩ => ⟨S4x8192x8, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4x8192x2048_S8x2048_S4x8192x8_2_1_01_0_n_n_wf : DotDims.WF S4x8192x2048 S8x2048 S4x8192x8 [2] [1] [0, 1] [0] [] []

variable [Facts₀]

def dot_S4x8192x2048_S8x2048_S4x8192x8_2_1_01_0_n_n : DotDims S4x8192x2048 S8x2048 S4x8192x8 where
  lhsContracting := [2]
  rhsContracting := [1]
  lhsNonContracting := [0, 1]
  rhsNonContracting := [0]
  lhsBatch := []
  rhsBatch := []
  wf := dot_S4x8192x2048_S8x2048_S4x8192x8_2_1_01_0_n_n_wf

class Facts : Prop extends Facts₀ where

variable [Facts]
-- ==== Proof.LibContractRhsT.lean ====
import Idealize.ShloMosaic.PureOps.Ideal.Laws
import Idealize.ShloMosaic.Lib.ValueIdx

/-!
# The contraction `[M, K] × [N, K]` read at an entry, on the extended reals

`DotDims.transposedRhs M K N` has the fields of every printed `…_1_1_0_0_n_n` record of rank-2 operands (contract the
left operand's axis 1 with the right operand's axis 1, no batch axes): the product `a · bᵀ`. Over it the host's
`dot_general` and a kernel's `tpu.matmul` into the zero splat are both, at entry `(p, q)`, the sum over `k` of
`a[p, k] · b[q, k]`.
-/

noncomputable section

namespace Cert.LibContractRhsT

open Idealize.ShloMosaic Idealize.ShloMosaic.ValueIdx

/-! ## The operand indices, axis by axis

At result index `j` and contraction index `c` the left operand is read at `(j 0, c)` and the right one at `(j 1, c)`:
a kept axis reads the result index at its place, the contracted axis reads the one coordinate of `c`. -/

/-- The left operand's row is the result's row. -/
theorem lhs_0 (M K N : Nat) (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction index's coordinate. -/
theorem lhs_1 (M K N : Nat) (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row is the result's column. -/
theorem rhs_0 (M K N : Nat) (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction index's coordinate. -/
theorem rhs_1 (M K N : Nat) (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- The sum over the one-axis contraction index, re-indexed by its coordinate `k : Fin K` and with both operand
    indices read off: `∑ k, a[p, k] · b[q, k]`. -/
theorem sum_eq (M K N : Nat) {φ₁ φ₂ : FTy} (a : FVec Ideal (⟨2, ![M, K]⟩ : Shape) φ₁)
    (b : FVec Ideal (⟨2, ![N, K]⟩ : Shape) φ₂) (p : Fin M) (q : Fin N) :
    (∑ c : (DotDims.transposedRhs M K N).contr.Idx,
        a ((DotDims.transposedRhs M K N).lhsIdx (ix2 p q) c) * b ((DotDims.transposedRhs M K N).rhsIdx (ix2 p q) c))
      = ∑ k : Fin K, a (ix2 p k) * b (ix2 q k) := by
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k)
      = ix2 p k := funext fun x => Fin.ext (by
    match x with
    | ⟨0, _⟩ => exact lhs_0 M K N _ _
    | ⟨1, _⟩ => exact (lhs_1 M K N _ _).trans hk)
  have er : (DotDims.transposedRhs M K N).rhsIdx (ix2 p q) ((ValueIdx.contrEquiv1 (DotDims.transposedRhs M K N) K rfl rfl).symm k)
      = ix2 q k := funext fun x => Fin.ext (by
    match x with
    | ⟨0, _⟩ => exact rhs_0 M K N _ _
    | ⟨1, _⟩ => exact (rhs_1 M K N _ _).trans hk)
  rw [el, er]

/-! ## The contraction read at an entry -/

/-- The host's `dot_general` contracting both operands' last axes, at entry `(p, q)`: `∑ k, a[p, k] · b[q, k]`. -/
theorem dotGeneral_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    Host.dotGeneral (DotDims.transposedRhs M K N) prec a b (ix2 p q) = ∑ k : Fin K, a (ix2 p k) * b (ix2 q k) := by
  simp only [Host.dotGeneral]
  rw [Ideal.dotGeneral_apply]
  exact sum_eq M K N a b p q

/-- A kernel's `tpu.matmul` contracting both operands' last axes into the zero splat, at entry `(p, q)`: the same sum. -/
theorem matmul_zero_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    matmul (DotDims.transposedRhs M K N) prec a b (constant (F := Ideal) (⟨2, ![M, N]⟩ : Shape) .f32 0x00000000#32) (ix2 p q)
      = ∑ k : Fin K, a (ix2 p k) * b (ix2 q k) := by
  simp only [matmul]
  rw [Ideal.matmul_constant_zero_apply]
  exact sum_eq M K N a b p q

end Cert.LibContractRhsT

end
-- ==== Proof.Payload.lean ====
import proofs.«102919_g31559419691535_cont_9to1_739_12_alg».proof.Proof.Gen.KernelIdeal.Skeleton
import proofs.«102919_g31559419691535_cont_9to1_739_12_alg».proof.Proof.LibContractRhsT
import Idealize.ShloMosaic.Lib.Pipeline.Value
import Idealize.ShloMosaic.Lib.ValueIdx

/-!
# What the body stores, entry by entry

At a grid point the body holds a [2, 1024, 2048] block of tokens (two halves' worth of 1024 consecutive tokens) and the
whole [8, 2048] weight. For each half it takes the [1, 1024, 2048] slab, drops the unit axis, contracts the hidden
axis against the weight's hidden axis into a zero accumulator, and puts the unit axis back: entry (0, r, e) of what it
stores for half g is `∑ h, block[g, r, h] · W[e, h]`. The two stores fill the two halves of the [2, 1024, 8] output
block, so the block the body leaves is that sum at every (g, r, e).
-/

noncomputable section

namespace Cert.KernelIdeal.Payload

open Cert.KernelIdeal Cert.KernelIdeal.Gen Idealize.ShloMosaic Idealize.ShloMosaic.ValueIdx

/-- The printed contraction record is the library's `a · bᵀ` record at these sizes. -/
theorem dims_eq : dot_S1024x2048_S8x2048_S1024x8_1_1_0_0_n_n = DotDims.transposedRhs 1024 2048 8 := rfl

/-- One slab contracted against the weight, at entry (0, r, e). -/
theorem slab_apply (w : FVec Ideal S8x2048 .f32) (xs : FVec Ideal S1x1024x2048 .f32) (r : Fin 1024) (e : Fin 8) :
    shapeCast S1x1024x8 (matmul (F := Ideal) (φ₁ := .f32) (φ₂ := .f32) dot_S1024x2048_S8x2048_S1024x8_1_1_0_0_n_n none
        (shapeCast S1024x2048 xs Facts₀.shapeCasts_S1x1024x2048_S1024x2048) w (constant (F := Ideal) S1024x8 .f32 0x00000000#32))
      Facts₀.shapeCasts_S1024x8_S1x1024x8 (ix3 (0 : Fin 1) r e)
      = ∑ k : Fin 2048, xs (ix3 (0 : Fin 1) r k) * w (ix2 e k) := by
  refine (shapeCast_apply _ Facts₀.shapeCasts_S1024x8_S1x1024x8 (ix3 (0 : Fin 1) r e) (ix2 r e) ?_).trans ?_
  · rw [Shape.rowMajor_val_two, Shape.rowMajor_val_three]
    show r.val * 8 + e.val = ((0 : Fin 1).val * 1024 + r.val) * 8 + e.val
    simp
  · rw [dims_eq]
    refine (Cert.LibContractRhsT.matmul_zero_apply (φ₁ := .f32) (φ₂ := .f32) 1024 2048 8 none _ w r e).trans ?_
    refine Finset.sum_congr rfl fun k _ => ?_
    have hx : shapeCast S1024x2048 xs Facts₀.shapeCasts_S1x1024x2048_S1024x2048 (ix2 r k) = xs (ix3 (0 : Fin 1) r k) := by
      refine shapeCast_apply _ Facts₀.shapeCasts_S1x1024x2048_S1024x2048 (ix2 r k) (ix3 (0 : Fin 1) r k) ?_
      rw [Shape.rowMajor_val_two, Shape.rowMajor_val_three]
      show ((0 : Fin 1).val * 1024 + r.val) * 2048 + k.val = r.val * 2048 + k.val
      simp
    exact congrArg (· * w (ix2 e k)) hx

/-- The first store's payload at entry (0, r, e). -/
theorem pay1_apply (w : Vec Ideal S8x2048 .f32) (xs : Vec Ideal S1x1024x2048 .f32) (r : Fin 1024) (e : Fin 8) :
    k0_pay1 (F := Ideal) w xs (ix3 (0 : Fin 1) r e) = ∑ k : Fin 2048, xs (ix3 (0 : Fin 1) r k) * w (ix2 e k) :=
  slab_apply w xs r e

/-- The second store's payload at entry (0, r, e). -/
theorem pay2_apply (w : Vec Ideal S8x2048 .f32) (xs : Vec Ideal S1x1024x2048 .f32) (r : Fin 1024) (e : Fin 8) :
    k0_pay2 (F := Ideal) w xs (ix3 (0 : Fin 1) r e) = ∑ k : Fin 2048, xs (ix3 (0 : Fin 1) r k) * w (ix2 e k) :=
  slab_apply w xs r e

/-- The block of logits of a token block: entry (g, r, e) sums token (g, r) against expert e over the hidden axis. -/
def blockLogits (xb : Vec Ideal S2x1024x2048 .f32) (w : Vec Ideal S8x2048 .f32) : Vec Ideal S2x1024x8 .f32 :=
  fun y => ∑ k : Fin 2048, xb (ix3 (y 0) (y 1) k) * w (ix2 (y 2) k)

end Cert.KernelIdeal.Payload

end
-- ==== Proof.Body.lean ====
import proofs.«102919_g31559419691535_cont_9to1_739_12_alg».proof.Proof.Gen.KernelIdeal.Frame
import proofs.«102919_g31559419691535_cont_9to1_739_12_alg».proof.Proof.Payload

/-!
# The block the body leaves

The body's two stores write the lower half (rows `[0, ·, ·]`) and the upper half (rows `[1, ·, ·]`) of the [2, 1024, 8]
output block. The store for half g holds, at (0, r, e), the sum over the hidden axis of the input block's token (g, r)
against expert e; the entry of the block under it is (g, r, e). So every entry of the block the body leaves is the
block's logits there.
-/

noncomputable section

namespace Cert.KernelIdeal.Body

open Cert.KernelIdeal Cert.KernelIdeal.Gen Cert.KernelIdeal.Payload Idealize.ShloMosaic Idealize.ShloMosaic.ValueIdx

/-- The upper-half store: its entry (0, r, e) is the block's logits at (1, r, e). -/
theorem piece_upper (x0 : Vec Ideal S2x1024x2048 .f32) (x1 : Vec Ideal S8x2048 .f32) (x : S1x1024x8.Idx) :
    k0_pay2 (F := Ideal) (View.ld x1 r0_0) (View.ld x0 r0_3) x = blockLogits x0 x1 (r0_4.emb x) := by
  obtain ⟨u, r, e, rfl⟩ : ∃ (u : Fin 1) (r : Fin 1024) (e : Fin 8), x = ix3 u r e := ⟨x 0, x 1, x 2, eq_ix3 x⟩
  obtain rfl : u = 0 := Subsingleton.elim _ _
  rw [pay2_apply]
  unfold blockLogits
  refine Finset.sum_congr rfl fun k _ => ?_
  have hx : View.ld x0 r0_3 (ix3 (0 : Fin 1) r k) = x0 (ix3 (r0_4.emb (ix3 (0 : Fin 1) r e) 0) (r0_4.emb (ix3 (0 : Fin 1) r e) 1) k) :=
    congrArg x0 (funext fun a => Fin.ext (by
      match a with
      | ⟨0, _⟩ => rfl
      | ⟨1, _⟩ => rfl
      | ⟨2, _⟩ => show 0 + 1 * k.val = k.val; omega))
  have hw : View.ld x1 r0_0 (ix2 e k) = x1 (ix2 (r0_4.emb (ix3 (0 : Fin 1) r e) 2) k) :=
    congrArg x1 (funext fun a => Fin.ext (by
      match a with
      | ⟨0, _⟩ => rfl
      | ⟨1, _⟩ => show 0 + 1 * k.val = k.val; omega))
  rw [hx, hw]

/-- The lower-half store: its entry (0, r, e) is the block's logits at (0, r, e). -/
theorem piece_lower (x0 : Vec Ideal S2x1024x2048 .f32) (x1 : Vec Ideal S8x2048 .f32) (x : S1x1024x8.Idx) :
    k0_pay1 (F := Ideal) (View.ld x1 r0_0) (View.ld x0 r0_1) x = blockLogits x0 x1 (r0_2.emb x) := by
  obtain ⟨u, r, e, rfl⟩ : ∃ (u : Fin 1) (r : Fin 1024) (e : Fin 8), x = ix3 u r e := ⟨x 0, x 1, x 2, eq_ix3 x⟩
  obtain rfl : u = 0 := Subsingleton.elim _ _
  rw [pay1_apply]
  unfold blockLogits
  refine Finset.sum_congr rfl fun k _ => ?_
  have hx : View.ld x0 r0_1 (ix3 (0 : Fin 1) r k) = x0 (ix3 (r0_2.emb (ix3 (0 : Fin 1) r e) 0) (r0_2.emb (ix3 (0 : Fin 1) r e) 1) k) :=
    congrArg x0 (funext fun a => Fin.ext (by
      match a with
      | ⟨0, _⟩ => rfl
      | ⟨1, _⟩ => rfl
      | ⟨2, _⟩ => show 0 + 1 * k.val = k.val; omega))
  have hw : View.ld x1 r0_0 (ix2 e k) = x1 (ix2 (r0_2.emb (ix3 (0 : Fin 1) r e) 2) k) :=
    congrArg x1 (funext fun a => Fin.ext (by
      match a with
      | ⟨0, _⟩ => rfl
      | ⟨1, _⟩ => show 0 + 1 * k.val = k.val; omega))
  rw [hx, hw]

/-- The block the body leaves is the logits of its input blocks, at every entry. -/
theorem out_block (x0 : Vec Ideal S2x1024x2048 .f32) (x1 : Vec Ideal S8x2048 .f32) :
    out0_2 (F := Ideal) x0 x1 = blockLogits x0 x1 := by
  funext y
  unfold out0_2
  refine View.canon_apply_of_pieces (blockLogits x0 x1) _ ?_ y (cover0_2 _ _ y)
  intro p hp x
  rcases List.mem_cons.mp hp with rfl | hp
  · exact piece_upper x0 x1 x
  · obtain rfl := List.mem_singleton.mp hp
    exact piece_lower x0 x1 x

end Cert.KernelIdeal.Body

end
-- ==== Proof.Router.lean ====
import Idealize.ShloMosaic.PureOps.Ideal
import Idealize.ShloMosaic.Lib.ValueIdx
import Idealize.ShloMosaic.Lib.Pipeline.Value

/-!
# The router gate as one function of its arguments

The gate's logits are `out[b, s, e] = ∑ h, x[b, s, h] · W[e, h]`: every token's hidden vector against every expert's
weight row. A token is addressed either by (batch, position) in `[4, 8192]` or, the token stream cut into two halves,
by (half, position) in `[2, 16384]`; both address the same row-major position `8192 · b + s = 16384 · g + p`, so the
logits computed half by half and laid back out by batch are the logits computed directly.
-/

noncomputable section

namespace Cert.Router

open Idealize.ShloMosaic Idealize.ShloMosaic.ValueIdx

/-- The logits by (batch, position, expert): the sum over the hidden axis of token entry times weight entry. -/
def logits (x : FVec Ideal (⟨3, ![4, 8192, 2048]⟩ : Shape) .f32) (w : FVec Ideal (⟨2, ![8, 2048]⟩ : Shape) .f32) :
    FVec Ideal (⟨3, ![4, 8192, 8]⟩ : Shape) .f32 :=
  fun i => ∑ k : Fin 2048, x (ix3 (i 0) (i 1) k) * w (ix2 (i 2) k)

/-- The same sum over the token stream addressed by (half, position). -/
def segLogits (xs : FVec Ideal (⟨3, ![2, 16384, 2048]⟩ : Shape) .f32) (w : FVec Ideal (⟨2, ![8, 2048]⟩ : Shape) .f32) :
    FVec Ideal (⟨3, ![2, 16384, 8]⟩ : Shape) .f32 :=
  fun j => ∑ k : Fin 2048, xs (ix3 (j 0) (j 1) k) * w (ix2 (j 2) k)

/-- Token (b, s) is token (g, p) of the halves with `16384 · g + p = 8192 · b + s`: the logits of the re-addressed
    stream, re-addressed back, are the logits. -/
theorem segLogits_relaid (x : FVec Ideal (⟨3, ![4, 8192, 2048]⟩ : Shape) .f32) (w : FVec Ideal (⟨2, ![8, 2048]⟩ : Shape) .f32)
    (hin : (⟨3, ![4, 8192, 2048]⟩ : Shape).ShapeCasts (⟨3, ![2, 16384, 2048]⟩ : Shape))
    (hout : (⟨3, ![2, 16384, 8]⟩ : Shape).ShapeCasts (⟨3, ![4, 8192, 8]⟩ : Shape)) :
    shapeCast (⟨3, ![4, 8192, 8]⟩ : Shape) (segLogits (shapeCast (⟨3, ![2, 16384, 2048]⟩ : Shape) x hin) w) hout = logits x w := by
  funext i
  obtain ⟨b, s, e, rfl⟩ : ∃ (b : Fin 4) (s : Fin 8192) (e : Fin 8), i = ix3 b s e := ⟨i 0, i 1, i 2, eq_ix3 i⟩
  have hb := b.isLt
  have hs := s.isLt
  -- the half and the position inside it
  let g : Fin 2 := ⟨(8192 * b.val + s.val) / 16384, by omega⟩
  let p : Fin 16384 := ⟨(8192 * b.val + s.val) % 16384, by omega⟩
  have hgp : 16384 * g.val + p.val = 8192 * b.val + s.val := by
    show 16384 * ((8192 * b.val + s.val) / 16384) + (8192 * b.val + s.val) % 16384 = _
    omega
  refine (shapeCast_apply _ hout (ix3 b s e) (ix3 g p e) ?_).trans ?_
  · rw [Shape.rowMajor_val_three, Shape.rowMajor_val_three]
    show (g.val * 16384 + p.val) * 8 + e.val = (b.val * 8192 + s.val) * 8 + e.val
    omega
  · unfold segLogits logits
    refine Finset.sum_congr rfl fun k _ => ?_
    have hx : shapeCast (⟨3, ![2, 16384, 2048]⟩ : Shape) x hin (ix3 g p k) = x (ix3 b s k) := by
      refine shapeCast_apply _ hin (ix3 g p k) (ix3 b s k) ?_
      rw [Shape.rowMajor_val_three, Shape.rowMajor_val_three]
      show (b.val * 8192 + s.val) * 2048 + k.val = (g.val * 16384 + p.val) * 2048 + k.val
      omega
    exact congrArg (· * w (ix2 e k)) hx

end Cert.Router

end
-- ==== Proof.KernelValue.lean ====
import proofs.«102919_g31559419691535_cont_9to1_739_12_alg».proof.Proof.Gen.KernelIdeal.Frame
import proofs.«102919_g31559419691535_cont_9to1_739_12_alg».proof.Proof.Body
import proofs.«102919_g31559419691535_cont_9to1_739_12_alg».proof.Proof.Router
import Idealize.ShloMosaic.Lib.StableHlo.Run
import Idealize.ShloMosaic.Lib.Pipeline.Value

/-!
# The kernel's result is the logits

The program re-addresses the token array by (half, position), runs the region over 16 grid points, and re-addresses the
region's [2, 16384, 8] result by (batch, position). At grid point t the region reads positions `1024·t … 1024·t + 1023`
of both halves (and the whole weight) and writes back the same positions of both halves of its result. What it writes
back is the body's block, the logits of the tokens it read: block t of the logits of the re-addressed token stream.
The sixteen blocks tile the result, so the region's result is those logits everywhere, and re-addressed by batch they
are the logits of the token array.
-/

noncomputable section

namespace Cert.KernelIdeal.KernelValue

open Cert.KernelIdeal Cert.KernelIdeal.Gen Cert.KernelIdeal.Payload Cert.KernelIdeal.Body Cert.Router
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The arrays the region finds -/

/-- The token stream as the region finds it: the token array re-addressed by (half, position). -/
theorem V_main_v0 (c : Dev nD) :
    (V m c main_v0 : FVec Ideal S2x16384x2048 .f32)
      = shapeCast S2x16384x2048 (m ((c : Thread nD τ).loc main_arg0)) Facts₀.shapeCasts_S4x8192x2048_S2x16384x2048 := by
  show StableHlo.after hostOps0 (fun b => m (c, b)) (Proc.devRef .tc main_v0) = _
  after_results
  rfl

/-! ## The block indices over the grid -/

/-- At point t the token window and the result window sit at block (0, t, 0), the weight window at block (0, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-! ## What a point writes back -/

/-- Point t writes back block t of the logits of the token stream the region found. -/
theorem flushed_eq (c : Dev nD) (t : Fin cfg0.N) :
    (dats m 0 c).flushed 2 t
      = ((cfg0.win 2).blk t).view.read (Elt Ideal) (segLogits (V m c main_v0) (V m c main_arg1)) := by
  show (cfg0.win 2).cut (grid0.coords t) ((dats m 0 c).after 2 t) = _
  rw [after0_2]
  obtain ⟨a0, a1, a2, b0, b1, o0, o1, o2⟩ := idx_facts t
  funext j
  show out0_2 (iblk m c 0 t) (iblk m c 1 t) j = segLogits (V m c main_v0) (V m c main_arg1) (((cfg0.win 2).blk t).view.emb j)
  refine (congrFun (out_block (iblk m c 0 t) (iblk m c 1 t)) j).trans ?_
  unfold blockLogits segLogits
  refine Finset.sum_congr rfl fun k _ => ?_
  have h0 : ((cfg0.win 0).blk t).view.emb (ix3 (j 0) (j 1) k)
      = ix3 (((cfg0.win 2).blk t).view.emb j 0) (((cfg0.win 2).blk t).view.emb j 1) k := by
    funext a; apply Fin.ext
    match a with
    | ⟨0, _⟩ => show win0_0.index t (0 : Fin 3) * 2 + 1 * (j 0).val = win0_2.index t (0 : Fin 3) * 2 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 2048 + 1 * k.val = k.val; omega
  have h1 : ((cfg0.win 1).blk t).view.emb (ix2 (j 2) k) = ix2 (((cfg0.win 2).blk t).view.emb j 2) k := by
    funext a; apply Fin.ext
    match a with
    | ⟨0, _⟩ => show win0_1.index t (0 : Fin 2) * 8 + 1 * (j 2).val = win0_2.index t (2 : Fin 3) * 8 + 1 * (j 2).val; omega
    | ⟨1, _⟩ => show win0_1.index t (1 : Fin 2) * 2048 + 1 * k.val = k.val; omega
  congr 1
  · show V m c main_v0 (((cfg0.win 0).blk t).view.emb (ix3 (j 0) (j 1) k)) = _
    exact congrArg (V m c main_v0) h0
  · show V m c main_arg1 (((cfg0.win 1).blk t).view.emb (ix2 (j 2) k)) = _
    exact congrArg (V m c main_arg1) h1

/-! ## The blocks tile the result -/

/-- An index of the region's result is under point t's block iff each coordinate is in the block's range on its axis. -/
theorem mem_blk (t : Fin cfg0.N) (i : S2x16384x8.Idx) :
    i ∈ ((cfg0.win 2).blk t).view.set ↔ ∀ a : Fin 3, win0_2.index t a * S2x1024x8.size a ≤ (i a).val
      ∧ (i a).val < win0_2.index t a * S2x1024x8.size a + S2x1024x8.size a := by
  show i ∈ ((View.whole main_v1).slice (win0_2.rect t)).set ↔ _
  rw [View.set_slice_whole, Rect.mem_set_unit]
  exact Iff.rfl

/-- Position p of either half is under the block of point `p / 1024`. -/
theorem cover (i : S2x16384x8.Idx) :
    ∃ t : Fin cfg0.N, (cfg0.win 2).flush t = true ∧ i ∈ ((cfg0.win 2).blk t).view.set := by
  have h0 : (i 0).val < 2 := (i 0).isLt
  have h1 : (i 1).val < 16384 := (i 1).isLt
  have h2 : (i 2).val < 8 := (i 2).isLt
  let t : Fin cfg0.N := ⟨(i 1).val / 1024, by show (i 1).val / 1024 < grid0.N; rw [N_0]; omega⟩
  have ht : t.val = (i 1).val / 1024 := rfl
  obtain ⟨-, -, -, -, -, o0, o1, o2⟩ := idx_facts t
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 8 ≤ (i 2).val ∧ (i 2).val < win0_2.index t (2 : Fin 3) * 8 + 8; omega

/-- The region's result after the run: the logits of the token stream it found. -/
theorem final (c : Dev nD) : (dats m 0 c).arrAt 2 cfg0.N = segLogits (V m c main_v0) (V m c main_arg1) :=
  (dats m 0 c).arrAt_eq_of_cover 2 (segLogits (V m c main_v0) (V m c main_arg1)) (fun t _ => flushed_eq m c t) cover

/-! ## The program's result -/

/-- The region's result re-addressed by (batch, position) is the logits of the arguments. -/
theorem result_eq (c : Dev nD) :
    (Pipeline.afterTail₀ cfgs (dats m) 0 (V0 m) [hostOps1] c main_v2 : FVec Ideal S4x8192x8 .f32)
      = logits (m ((c : Thread nD τ).loc main_arg0)) (m ((c : Thread nD τ).loc main_arg1)) := by
  unfold Pipeline.afterTail₀
  show StableHlo.after hostOps1 _ (Proc.devRef .tc main_v2) = _
  after_results
  have hv1 : Pipeline.withArrays (cfgs 0).spec c (V0 m c) (fun w => (dats m 0 c).arrAt w (cfgs 0).N) (Proc.devRef .tc main_v1)
      = segLogits (V m c main_v0) (V m c main_arg1) :=
    (Pipeline.withArrays_arr spec0 launch0.win.arr_inj c _ _ 2).trans (final m c)
  refine Eq.trans (b := shapeCast S4x8192x8 (segLogits (V m c main_v0) (V m c main_arg1)) Facts₀.shapeCasts_S2x16384x8_S4x8192x8) ?_ ?_
  · rw [hv1]
    rfl
  · rw [V_main_v0, V_main_arg1]
    exact segLogits_relaid _ _ _ _

/-! ## The run, read -/

/-- Every weakly fair execution of the program terminates with its result at the logits of the arguments and the
    arguments unchanged. -/
theorem run : θ_run defs (onTc (τ := τ) (main (F := Ideal))) ⟨m, fun _ => 0, ρ⟩ fun r => ∀ c : Dev nD,
      r.2.mem ((c.tc : Thread nD τ).loc main_v2) = logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.KernelValue

end
-- ==== Proof.RefValue.lean ====
import proofs.«102919_g31559419691535_cont_9to1_739_12_alg».proof.Proof.Gen.ReferenceIdeal.Read
import proofs.«102919_g31559419691535_cont_9to1_739_12_alg».proof.Proof.Router

/-!
# The reference computes the logits

The reference is one contraction of the token array's hidden axis against the weight's hidden axis, keeping
(batch, position) from the tokens and the expert from the weight: entry (b, s, e) is `∑ h, x[b, s, h] · W[e, h]`.
-/

noncomputable section

namespace Cert.ReferenceIdeal.RefValue

open Cert.ReferenceIdeal Idealize.ShloMosaic Idealize.ShloMosaic.ValueIdx

/-- The reference's contraction, entry by entry, is the logits' sum over the hidden axis. -/
theorem val_eq_logits (x : (⟨S4x8192x2048, .f32⟩ : BufTy).Contents (Elt Ideal)) (w : (⟨S8x2048, .f32⟩ : BufTy).Contents (Elt Ideal)) :
    Read.val_main_v0 (F := Ideal) x w = Cert.Router.logits x w := by
  funext i
  rw [Read.val_main_v0_apply]
  unfold Cert.Router.logits
  refine Finset.sum_congr rfl fun k _ => ?_
  have el : Read.lidx_main_v0 i k = ix3 (i 0) (i 1) k := funext fun a => by
    match a with
    | ⟨0, _⟩ => rfl
    | ⟨1, _⟩ => rfl
    | ⟨2, _⟩ => rfl
  have er : Read.ridx_main_v0 i k = ix2 (i 2) k := funext fun a => by
    match a with
    | ⟨0, _⟩ => rfl
    | ⟨1, _⟩ => rfl
  exact congrArg₂ (fun a b => x a * w b) el er

end Cert.ReferenceIdeal.RefValue

end
-- ==== Proof.lean ====
/- The router gate `out[b, s, e] = ∑ h, x[b, s, h] · W[e, h]` computed two ways.
   The kernel re-addresses the 32768 tokens as two halves of 16384, and at each of 16 grid points contracts 1024
   tokens of each half against the whole weight into a zero accumulator, writing the two [1024, 8] results side by side;
   the result is re-addressed by (batch, position). The reference contracts the token array's hidden axis against the
   weight's in one step. On the extended reals both are, at every (b, s, e), the same sum over the hidden axis of the
   same products: no law beyond naming that sum is needed, and the inputs' finiteness is never used.
   The frames are the generated ones; the ideal pass rewrote nothing, so there is nothing to preserve. -/
import proofs.«102919_g31559419691535_cont_9to1_739_12_alg».proof.Defs
import proofs.«102919_g31559419691535_cont_9to1_739_12_alg».proof.Proof.Gen.Kernel
import proofs.«102919_g31559419691535_cont_9to1_739_12_alg».proof.Proof.Gen.Kernel.Skeleton
import proofs.«102919_g31559419691535_cont_9to1_739_12_alg».proof.Proof.Gen.Kernel.Launch
import proofs.«102919_g31559419691535_cont_9to1_739_12_alg».proof.Proof.Gen.Kernel.Points
import proofs.«102919_g31559419691535_cont_9to1_739_12_alg».proof.Proof.Gen.Kernel.Frame
import proofs.«102919_g31559419691535_cont_9to1_739_12_alg».proof.Proof.Gen.KernelIdeal
import proofs.«102919_g31559419691535_cont_9to1_739_12_alg».proof.Proof.Gen.KernelIdeal.Skeleton
import proofs.«102919_g31559419691535_cont_9to1_739_12_alg».proof.Proof.Gen.KernelIdeal.Launch
import proofs.«102919_g31559419691535_cont_9to1_739_12_alg».proof.Proof.Gen.KernelIdeal.Points
import proofs.«102919_g31559419691535_cont_9to1_739_12_alg».proof.Proof.Gen.KernelIdeal.Frame
import proofs.«102919_g31559419691535_cont_9to1_739_12_alg».proof.Proof.Gen.ReferenceIdeal
import proofs.«102919_g31559419691535_cont_9to1_739_12_alg».proof.Proof.Gen.ReferenceIdeal.Run
import proofs.«102919_g31559419691535_cont_9to1_739_12_alg».proof.Proof.Gen.ReferenceIdeal.Read
import proofs.«102919_g31559419691535_cont_9to1_739_12_alg».proof.Proof.Gen.Pre_finite_inputs
import proofs.«102919_g31559419691535_cont_9to1_739_12_alg».proof.Proof.KernelValue
import proofs.«102919_g31559419691535_cont_9to1_739_12_alg».proof.Proof.RefValue
import Idealize.ShloMosaic.Adequacy
import Idealize.ShloMosaic.Init

noncomputable section

namespace Cert.Proof

open Idealize.ShloMosaic Idealize.SL.Sem

/-- The reference runs and keeps its arguments: its run with the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end at the logits of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Router.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.val_eq_logits _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
